-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x600000 32) (main_arg2 : FVec F S600000 .f32) (main_arg3 : IVec S2x600000 32) (main_arg4 : FVec F S600000 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000 .f32 := Host.absf main_arg4
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x384 : Shape := ⟨2, ![128, 384]⟩
abbrev S_ : Shape := ⟨0, ![]⟩
abbrev S384 : Shape := ⟨1, ![384]⟩
abbrev S1x384 : Shape := ⟨2, ![1, 384]⟩
abbrev S100000x384 : Shape := ⟨2, ![100000, 384]⟩
abbrev S4000x128 : Shape := ⟨2, ![4000, 128]⟩
abbrev S4000x384 : Shape := ⟨2, ![4000, 384]⟩
abbrev S1x600000 : Shape := ⟨2, ![1, 600000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 66
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S2x600000, .i32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S_, .f32⟩
  | .hbm, ⟨13, _⟩ => ⟨S128, .f32⟩
  | .hbm, ⟨14, _⟩ => ⟨S384, .f32⟩
  | .hbm, ⟨15, _⟩ => ⟨S1x384, .f32⟩
  | .hbm, ⟨16, _⟩ => ⟨S100000x384, .f32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S1x600000, .i32⟩
  | .hbm, ⟨21, _⟩ => ⟨S600000, .i32⟩
  | .hbm, ⟨22, _⟩ => ⟨S1x600000, .i32⟩
  | .hbm, ⟨23, _⟩ => ⟨S600000, .i32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x1, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S1x600000, .i32⟩
  | .hbm, ⟨44, _⟩ => ⟨S600000, .i32⟩
  | .hbm, ⟨45, _⟩ => ⟨S1x600000, .i32⟩
  | .hbm, ⟨46, _⟩ => ⟨S600000, .i32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S600000x1, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x384, .f32⟩
  | .local _ .vmem, ⟨3, _⟩ => ⟨S1x384, .f32⟩
  | .local _ .vmem, ⟨4, _⟩ => ⟨S4000x384, .f32⟩
  | .local _ .vmem, ⟨5, _⟩ => ⟨S4000x384, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S128x128_S128x128_S128x128_S128x384_d1 : Shape.Concatenates [S128x128, S128x128, S128x128] S128x384 1
  bcast_S_S128 : S_.BroadcastsInDim S128 (![] : Fin 0 → Fin S128.rank)
  concatenates_S128_S128_S128_S384_d0 : Shape.Concatenates [S128, S128, S128] S384 0
  shapeCasts_S384_S1x384 : S384.ShapeCasts S1x384
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  inb_S4000x384_S4000x384_0_0 : ∀ a, (![0, 0] : Fin 2 → Nat) a + S4000x384.size a ≤ S4000x384.size a
  h_S4000x384 : 0 < S4000x384.numel
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S4000x128_S128x384_S4000x384_1_0_0_1_n_n_wf : DotDims.WF S4000x128 S128x384 S4000x384 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x384.size a ≤ S100000x384.size a
  hwx0_3 : ∀ i : grid0.Coords, EltTy.bits .f32 = 32 ∨ (Rect.block (s := S100000x384) S4000x384.size (cc0_transform_3 i) (hinb0_3 i)).WholeWords (EltTy.packing .f32)

variable [Facts₀]

def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S2x600000, .i32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S600000x1, .f32⟩
  | .hbm, ⟨28, _⟩ => ⟨S600000x128, .f32⟩
  | .hbm, ⟨29, _⟩ => ⟨S600000x128, .f32⟩
  | .hbm, ⟨30, _⟩ => ⟨S1x600000, .i32⟩
  | .hbm, ⟨31, _⟩ => ⟨S600000, .i32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x600000, .i32⟩
  | .hbm, ⟨41, _⟩ => ⟨S600000, .i32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S600000x1, .f32⟩
  | .hbm, ⟨52, _⟩ => ⟨S600000x128, .f32⟩
  | .hbm, ⟨53, _⟩ => ⟨S600000x128, .f32⟩
  | .hbm, ⟨54, _⟩ => ⟨S1x600000, .i32⟩
  | .hbm, ⟨55, _⟩ => ⟨S600000, .i32⟩
  | .hbm, ⟨56, _⟩ => ⟨S_, .f32⟩
  | .hbm, ⟨57, _⟩ => ⟨S100000x128, .f32⟩
  | .hbm, ⟨58, _⟩ => ⟨S600000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  slices_S2x600000_S1x600000_1_0 : S2x600000.Slices ![1, 0] S1x600000
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.AroundBits.lean ====
/-
  The frame of `Kernel`: @main is five host operations (the three weight matrices laid side by side into one
  [128, 384] matrix, a zero vector, the bias row [bln | 0 | 0], its reshape to one row), ONE pipelined kernel over 25
  row blocks of 4000 rows, and forty-nine host operations on the kernel's [100000, 384] result (three column slices,
  and for two of them an index wrap, a row gather, a scale by the edge weights, a scatter-add and a bias).

  The kernel body at a grid point loads its three input blocks whole, loads and ignores the output buffer, and stores
  ONE value over the whole output block: the product of the x block with the weight matrix plus the broadcast bias row
  (`Gen.k0_pay1`). So the output buffer after the body is a function of the three input blocks alone, the inputs'
  buffers are left as found, and nothing else is touched. The host operations before the region write only their own
  result buffers and those after it write only theirs, none of which is an argument or an array of the pipeline;
  hence every argument array ends as launched, and the kernel's result array ends block by block at what the body stored.
  Everything is stated for any float instance `F`.
-/
import proofs.«133655_j84310208020812_1_alg».proof.Proof.Gen.Kernel.Launch
import proofs.«133655_j84310208020812_1_alg».proof.Proof.Gen.Kernel.Skeleton
import proofs.«133655_j84310208020812_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the five host operations that
    build the weight matrix and the bias row. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each operation after the region writes its own result buffer, which is none of the four arrays the pipeline
    stages (x, the weight matrix, the bias row, the kernel's result). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The arguments are written by no host operation -/

/-- @main's eleven argument arrays. -/
abbrev args : List (Ref sig .tc) :=
  [main_arg0, main_arg1, main_arg2, main_arg3, main_arg4, main_arg5, main_arg6, main_arg7, main_arg8, main_arg9, main_arg10]

/-- No host operation before the region writes an argument: the region finds each as launched. -/
theorem V_arg (c : Dev nD) {b : Ref sig .tc} (hb : b ∈ args) : V m c b = m ((c : Thread nD τ).loc b) := by
  simp only [args, List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.nary_writes,
        StableHlo.reshape_writes, Finset.mem_singleton]
      repeat' apply And.intro
      all_goals exact StableHlo.devRef_ne_of_ne (by decide)))

/-- The ten arguments other than x, none of which the pipeline stages. -/
abbrev restArgs : List (Ref sig .tc) :=
  [main_arg1, main_arg2, main_arg3, main_arg4, main_arg5, main_arg6, main_arg7, main_arg8, main_arg9, main_arg10]

theorem restArgs_sub {b : Ref sig .tc} (hb : b ∈ restArgs) : b ∈ args := List.mem_cons_of_mem _ hb

/-- No host operation after the region writes one of them either, and the region does not stage them: each ends as
    launched. -/
theorem W_arg (dats : (p : Fin _) → (c : Dev nD) → Dat τ (Elt F) Unit ℕ (UR sig nD τ) ℕ (cfgs p) c) (c : Dev nD)
    {b : Ref sig .tc} (hb : b ∈ restArgs) :
    Pipeline.afterTail₀ cfgs dats 0 (V0 m) [hostOps1] c b = m ((c : Thread nD τ).loc b) := by
  have hV := V_arg m c (restArgs_sub hb)
  have hne : ∀ w, Pipeline.arrRef spec0 w ≠ b := by
    simp only [restArgs, List.mem_cons, List.mem_nil_iff, or_false] at hb
    rcases hb with rfl | rfl | rfl | rfl | rfl | rfl | rfl | rfl | rfl | rfl <;> decide
  have hnw : ∀ op ∈ List.flatten [(hostOps1 : List (HloOp τ sig (Elt F)))], Proc.devRef .tc b ∉ op.writes := by
    simp only [restArgs, List.mem_cons, List.mem_nil_iff, or_false] at hb
    rcases hb with rfl | rfl | rfl | rfl | rfl | rfl | rfl | rfl | rfl | rfl
    all_goals
      exact List.forall_iff_forall_mem.mp (by
        simp only [hostOps1, List.flatten_cons, List.flatten_nil, List.append_nil, List.cons_append,
          List.nil_append, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))
  unfold Pipeline.afterTail₀
  rw [StableHlo.after_of_forall_not_mem _ _ hnw, Pipeline.withArrays_of_ne _ c (V0 m c) _ b hne]
  exact hV

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the weight matrix and
    the bias row are fetched at the first point only, and their block index never moves), for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The library's frame post read at the argument arrays: x is an input array of the pipeline, so it ends at its entry
    contents; every other argument bypasses the region and is written by no later operation. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  have rest : ∀ {b : Ref sig .tc} (hb : b ∈ restArgs) (hs : b.isScoped = false) (ha : ∀ w, (spec0 w).arr.view.ref ≠ b),
      r.2.mem ((c.tc : Thread nD τ).loc b) = m ((c.tc : Thread nD τ).loc b) := fun {b} hb hs ha =>
    ((h c).2 b (Pipeline.mem_restRefs_of b hs ha)).trans (W_arg m dats c hb)
  ⟨((h c).1 0).trans (((dats 0 c).arrAt_in 0 rfl _).trans ((hA c 0).trans (V_arg m c (by simp [args])))),
    rest (by simp [restArgs]) (by decide) (by decide), rest (by simp [restArgs]) (by decide) (by decide),
    rest (by simp [restArgs]) (by decide) (by decide), rest (by simp [restArgs]) (by decide) (by decide),
    rest (by simp [restArgs]) (by decide) (by decide), rest (by simp [restArgs]) (by decide) (by decide),
    rest (by simp [restArgs]) (by decide) (by decide), rest (by simp [restArgs]) (by decide) (by decide),
    rest (by simp [restArgs]) (by decide) (by decide), rest (by simp [restArgs]) (by decide) (by decide)⟩

/-- For any proof data whose arrays are the region-entry contents, a run to the library's frame post is a run to the
    frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_of_post m dats hA r h c) h

/-! ## The body's accesses -/

abbrev rX : Rect S4000x128 := Rect.unit (s := S4000x128) ![0, 0] S4000x128.size inb_S4000x128_S4000x128_0_0
abbrev rW : Rect S128x384 := Rect.unit (s := S128x384) ![0, 0] S128x384.size inb_S128x384_S128x384_0_0
abbrev rB : Rect S1x384 := Rect.unit (s := S1x384) ![0, 0] S1x384.size inb_S1x384_S1x384_0_0
abbrev rY : Rect S4000x384 := Rect.unit (s := S4000x384) ![0, 0] S4000x384.size inb_S4000x384_S4000x384_0_0

/-! ## What the body leaves in the output window's buffer -/

/-- The output block after the body, from the three input blocks: its one store, over the whole block, of the
    product-plus-bias payload of the blocks loaded whole. -/
def outY (x : Vec F S4000x128 .f32) (w : Vec F S128x384 .f32) (b : Vec F S1x384 .f32) : Vec F S4000x384 .f32 :=
  View.canon [⟨rY, k0_pay1 (View.ld x rX) (View.ld w rW) (View.ld b rB)⟩]

/-- The one store covers the block. -/
theorem coverY (p0 : Vec F S4000x384 .f32) (y : S4000x384.Idx) :
    ∃ pc ∈ ([⟨rY, p0⟩] : List (View.Piece (Elt F) S4000x384 .f32)), y ∈ pc.1.set :=
  View.cover_of_tiled [⟨rY, p0⟩] S4000x384.size (by rfl) y

/-! ## The body's triple -/

set_option maxHeartbeats 1000000 in
/-- The kernel body on whole staging memrefs, the inputs' at contents `x`, `w`, `b` and the output's at anything, runs
    to the continuation holding the inputs' as they were and the output's at `outY x w b`. -/
theorem sound_kernel (c : Dev nD) (E : Set ℕ) (i : grid0.Coords) (arg1 : Memref sig .tc .vmem S4000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S4000x384 .f32) (harg4 : arg4.IsWhole)
    (x : Vec F S4000x128 .f32) (w : Vec F S128x384 .f32) (b : Vec F S1x384 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (outY x w b)) -∗ K ⟨⟩))
      ⊢ wp frame (wpE (defs₀ (F := F)) Variants.none c none) E (cc0__fused_matmul_kernel i arg1 harg1 arg2 harg2 arg3 harg3 arg4 harg4) K := by
  simp only [cc0__fused_matmul_kernel_eq_skeleton]; unfold cc0__fused_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverY _)

/-! ## The pipeline's proof data -/

/-- The proof data of the pipeline on core `c`: the arrays as the region finds them; after the body at point `t` each
    input's buffer at its block and the output's at `outY` of the three input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outY (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outY (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the proof data say (an input as the region found it, the result block by block at what
    the body stored) and every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`: @main runs to the end without a fault and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Around

end
-- ==== Proof.AroundIdeal.lean ====
/-
  The frame of `KernelIdeal`: @main is five host operations (the three weight matrices laid side by side into one
  [128, 384] matrix, a zero vector, the bias row [bln | 0 | 0], its reshape to one row), ONE pipelined kernel over 25
  row blocks of 4000 rows, and forty-nine host operations on the kernel's [100000, 384] result (three column slices,
  and for two of them an index wrap, a row gather, a scale by the edge weights, a scatter-add and a bias).

  The kernel body at a grid point loads its three input blocks whole, loads and ignores the output buffer, and stores
  ONE value over the whole output block: the product of the x block with the weight matrix plus the broadcast bias row
  (`Gen.k0_pay1`). So the output buffer after the body is a function of the three input blocks alone, the inputs'
  buffers are left as found, and nothing else is touched. The host operations before the region write only their own
  result buffers and those after it write only theirs, none of which is an argument or an array of the pipeline;
  hence every argument array ends as launched, and the kernel's result array ends block by block at what the body stored.
  Everything is stated for any float instance `F`.
-/
import proofs.«133655_j84310208020812_1_alg».proof.Proof.Gen.KernelIdeal.Launch
import proofs.«133655_j84310208020812_1_alg».proof.Proof.Gen.KernelIdeal.Skeleton
import proofs.«133655_j84310208020812_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the five host operations that
    build the weight matrix and the bias row. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each operation after the region writes its own result buffer, which is none of the four arrays the pipeline
    stages (x, the weight matrix, the bias row, the kernel's result). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The arguments are written by no host operation -/

/-- @main's eleven argument arrays. -/
abbrev args : List (Ref sig .tc) :=
  [main_arg0, main_arg1, main_arg2, main_arg3, main_arg4, main_arg5, main_arg6, main_arg7, main_arg8, main_arg9, main_arg10]

/-- No host operation before the region writes an argument: the region finds each as launched. -/
theorem V_arg (c : Dev nD) {b : Ref sig .tc} (hb : b ∈ args) : V m c b = m ((c : Thread nD τ).loc b) := by
  simp only [args, List.mem_cons, List.mem_nil_iff, or_false] at hb
  rcases hb with rfl | rfl | rfl | rfl | rfl | rfl | rfl | rfl | rfl | rfl | rfl
  all_goals
    exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.nary_writes,
        StableHlo.reshape_writes, Finset.mem_singleton]
      repeat' apply And.intro
      all_goals exact StableHlo.devRef_ne_of_ne (by decide)))

/-- The ten arguments other than x, none of which the pipeline stages. -/
abbrev restArgs : List (Ref sig .tc) :=
  [main_arg1, main_arg2, main_arg3, main_arg4, main_arg5, main_arg6, main_arg7, main_arg8, main_arg9, main_arg10]

theorem restArgs_sub {b : Ref sig .tc} (hb : b ∈ restArgs) : b ∈ args := List.mem_cons_of_mem _ hb

/-- No host operation after the region writes one of them either, and the region does not stage them: each ends as
    launched. -/
theorem W_arg (dats : (p : Fin _) → (c : Dev nD) → Dat τ (Elt F) Unit ℕ (UR sig nD τ) ℕ (cfgs p) c) (c : Dev nD)
    {b : Ref sig .tc} (hb : b ∈ restArgs) :
    Pipeline.afterTail₀ cfgs dats 0 (V0 m) [hostOps1] c b = m ((c : Thread nD τ).loc b) := by
  have hV := V_arg m c (restArgs_sub hb)
  have hne : ∀ w, Pipeline.arrRef spec0 w ≠ b := by
    simp only [restArgs, List.mem_cons, List.mem_nil_iff, or_false] at hb
    rcases hb with rfl | rfl | rfl | rfl | rfl | rfl | rfl | rfl | rfl | rfl <;> decide
  have hnw : ∀ op ∈ List.flatten [(hostOps1 : List (HloOp τ sig (Elt F)))], Proc.devRef .tc b ∉ op.writes := by
    simp only [restArgs, List.mem_cons, List.mem_nil_iff, or_false] at hb
    rcases hb with rfl | rfl | rfl | rfl | rfl | rfl | rfl | rfl | rfl | rfl
    all_goals
      exact List.forall_iff_forall_mem.mp (by
        simp only [hostOps1, List.flatten_cons, List.flatten_nil, List.append_nil, List.cons_append,
          List.nil_append, List.Forall, StableHlo.nullary_writes, StableHlo.unary_writes, StableHlo.binary_writes,
          StableHlo.ternary_writes, StableHlo.reshape_writes, Finset.mem_singleton]
        repeat' apply And.intro
        all_goals exact StableHlo.devRef_ne_of_ne (by decide))
  unfold Pipeline.afterTail₀
  rw [StableHlo.after_of_forall_not_mem _ _ hnw, Pipeline.withArrays_of_ne _ c (V0 m c) _ b hne]
  exact hV

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the weight matrix and
    the bias row are fetched at the first point only, and their block index never moves), for any proof data whose
    array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The library's frame post read at the argument arrays: x is an input array of the pipeline, so it ends at its entry
    contents; every other argument bypasses the region and is written by no later operation. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  have rest : ∀ {b : Ref sig .tc} (hb : b ∈ restArgs) (hs : b.isScoped = false) (ha : ∀ w, (spec0 w).arr.view.ref ≠ b),
      r.2.mem ((c.tc : Thread nD τ).loc b) = m ((c.tc : Thread nD τ).loc b) := fun {b} hb hs ha =>
    ((h c).2 b (Pipeline.mem_restRefs_of b hs ha)).trans (W_arg m dats c hb)
  ⟨((h c).1 0).trans (((dats 0 c).arrAt_in 0 rfl _).trans ((hA c 0).trans (V_arg m c (by simp [args])))),
    rest (by simp [restArgs]) (by decide) (by decide), rest (by simp [restArgs]) (by decide) (by decide),
    rest (by simp [restArgs]) (by decide) (by decide), rest (by simp [restArgs]) (by decide) (by decide),
    rest (by simp [restArgs]) (by decide) (by decide), rest (by simp [restArgs]) (by decide) (by decide),
    rest (by simp [restArgs]) (by decide) (by decide), rest (by simp [restArgs]) (by decide) (by decide),
    rest (by simp [restArgs]) (by decide) (by decide), rest (by simp [restArgs]) (by decide) (by decide)⟩

/-- For any proof data whose arrays are the region-entry contents, a run to the library's frame post is a run to the
    frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_of_post m dats hA r h c) h

/-! ## The body's accesses -/

abbrev rX : Rect S4000x128 := Rect.unit (s := S4000x128) ![0, 0] S4000x128.size inb_S4000x128_S4000x128_0_0
abbrev rW : Rect S128x384 := Rect.unit (s := S128x384) ![0, 0] S128x384.size inb_S128x384_S128x384_0_0
abbrev rB : Rect S1x384 := Rect.unit (s := S1x384) ![0, 0] S1x384.size inb_S1x384_S1x384_0_0
abbrev rY : Rect S4000x384 := Rect.unit (s := S4000x384) ![0, 0] S4000x384.size inb_S4000x384_S4000x384_0_0

/-! ## What the body leaves in the output window's buffer -/

/-- The output block after the body, from the three input blocks: its one store, over the whole block, of the
    product-plus-bias payload of the blocks loaded whole. -/
def outY (x : Vec F S4000x128 .f32) (w : Vec F S128x384 .f32) (b : Vec F S1x384 .f32) : Vec F S4000x384 .f32 :=
  View.canon [⟨rY, k0_pay1 (View.ld x rX) (View.ld w rW) (View.ld b rB)⟩]

/-- The one store covers the block. -/
theorem coverY (p0 : Vec F S4000x384 .f32) (y : S4000x384.Idx) :
    ∃ pc ∈ ([⟨rY, p0⟩] : List (View.Piece (Elt F) S4000x384 .f32)), y ∈ pc.1.set :=
  View.cover_of_tiled [⟨rY, p0⟩] S4000x384.size (by rfl) y

/-! ## The body's triple -/

set_option maxHeartbeats 1000000 in
/-- The kernel body on whole staging memrefs, the inputs' at contents `x`, `w`, `b` and the output's at anything, runs
    to the continuation holding the inputs' as they were and the output's at `outY x w b`. -/
theorem sound_kernel (c : Dev nD) (E : Set ℕ) (i : grid0.Coords) (arg1 : Memref sig .tc .vmem S4000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S4000x384 .f32) (harg4 : arg4.IsWhole)
    (x : Vec F S4000x128 .f32) (w : Vec F S128x384 .f32) (b : Vec F S1x384 .f32) (K : PUnit → sProp 𝕄) :
    iprop(owns (c : Thread nD τ) arg1 fullShare x ∗ owns (c : Thread nD τ) arg2 fullShare w ∗ owns (c : Thread nD τ) arg3 fullShare b ∗ (∃ d, owns (c : Thread nD τ) arg4 fullShare d)
        ∗ (iprop(owns (c : Thread nD τ) arg1 fullShare x ∗ owns (c : Thread nD τ) arg2 fullShare w ∗ owns (c : Thread nD τ) arg3 fullShare b ∗ owns (c : Thread nD τ) arg4 fullShare (outY x w b)) -∗ K ⟨⟩))
      ⊢ wp frame (wpE (defs₀ (F := F)) Variants.none c none) E (cc0__fused_matmul_kernel i arg1 harg1 arg2 harg2 arg3 harg3 arg4 harg4) K := by
  simp only [cc0__fused_matmul_kernel_eq_skeleton]; unfold cc0__fused_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverY _)

/-! ## The pipeline's proof data -/

/-- The proof data of the pipeline on core `c`: the arrays as the region finds them; after the body at point `t` each
    input's buffer at its block and the output's at `outY` of the three input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outY (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outY (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the proof data say (an input as the region found it, the result block by block at what
    the body stored) and every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`: @main runs to the end without a fault and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Around

end
-- ==== Proof.RefSide.lean ====
/-
  The reference program's side of the certificate: its run read back as pure terms of the argument arrays,
  and each of its three results in the form the kernel's side meets.

  The reference computes three arrays of 100000 rows and 128 columns from the node features x (100000 x 128):
  a linear layer x W + b, and twice the same edge aggregation of a projected feature array h = x W':
  every edge (source, target) with weight w adds w times row source of h to row target of an array of zeros
  (a negative source counts from the end), and a bias row is added to every row.
  Here: (A) each of the three matrix products read at (i, q) is the sum over k < 128 of x[i, k] W[k, q];
  (B) the aggregation is ONE function `tail` of h, the edge array, the weights and the bias, and both aggregated
  results are `tail` of their product; (C) the run's three results are stated through these.
-/
import proofs.«133655_j84310208020812_1_alg».proof.Proof.Gen.ReferenceIdeal.Run
import proofs.«133655_j84310208020812_1_alg».proof.Proof.Gen.ReferenceIdeal.Read
import Idealize.ShloMosaic.Lib.ValueIdx
import Idealize.ShloMosaic.PureOps.Ideal

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! ## (A) The three matrix products at an index

  At output index (i, q) and contracted position k each product reads its left operand at (i, k) and its right
  operand at (k, q). -/

theorem lidx_v0 (i : Fin 100000) (q k : Fin 128) : lidx_main_v0 (ix2 i q) k = ix2 i k :=
  funext fun a => Fin.ext (by match a with | ⟨0, _⟩ => rfl | ⟨1, _⟩ => rfl)
theorem ridx_v0 (i : Fin 100000) (q k : Fin 128) : ridx_main_v0 (ix2 i q) k = ix2 k q :=
  funext fun a => Fin.ext (by match a with | ⟨0, _⟩ => rfl | ⟨1, _⟩ => rfl)
theorem lidx_v4 (i : Fin 100000) (q k : Fin 128) : lidx_main_v4 (ix2 i q) k = ix2 i k :=
  funext fun a => Fin.ext (by match a with | ⟨0, _⟩ => rfl | ⟨1, _⟩ => rfl)
theorem ridx_v4 (i : Fin 100000) (q k : Fin 128) : ridx_main_v4 (ix2 i q) k = ix2 k q :=
  funext fun a => Fin.ext (by match a with | ⟨0, _⟩ => rfl | ⟨1, _⟩ => rfl)
theorem lidx_v25 (i : Fin 100000) (q k : Fin 128) : lidx_main_v25 (ix2 i q) k = ix2 i k :=
  funext fun a => Fin.ext (by match a with | ⟨0, _⟩ => rfl | ⟨1, _⟩ => rfl)
theorem ridx_v25 (i : Fin 100000) (q k : Fin 128) : ridx_main_v25 (ix2 i q) k = ix2 k q :=
  funext fun a => Fin.ext (by match a with | ⟨0, _⟩ => rfl | ⟨1, _⟩ => rfl)

/-- The bias vector, made a row and broadcast down the rows, reads at (i, q) its entry q. -/
theorem bidx_v2 (i : Fin 100000) (q : Fin 128) : idx_main_v1 (idx_main_v2 (ix2 i q)) = ix1 q :=
  funext fun a => Fin.ext (by match a with | ⟨0, _⟩ => rfl)

/-- The linear layer at (i, q): the sum over k of x[i, k] W[k, q], plus b[q]. -/
theorem lin_apply (x0 : (⟨S100000x128, .f32⟩ : BufTy).Contents (Elt Ideal)) (x5 : (⟨S128x128, .f32⟩ : BufTy).Contents (Elt Ideal)) (x6 : (⟨S128, .f32⟩ : BufTy).Contents (Elt Ideal))
    (i : Fin 100000) (q : Fin 128) :
    val_main_v3 (F := Ideal) x0 x5 x6 (ix2 i q) = (∑ k : Fin 128, x0 (ix2 i k) * x5 (ix2 k q)) + x6 (ix1 q) := by
  rw [val_main_v3_apply, val_main_v0_apply, val_main_v2_apply, val_main_v1_apply, Ideal.addf_def, bidx_v2]
  refine congrArg (· + x6 (ix1 q)) (Finset.sum_congr rfl fun k _ => ?_)
  rw [lidx_v0, ridx_v0]

/-- The first projected feature array at (i, q): the sum over k of x[i, k] W[k, q]. -/
theorem h1_apply (x0 : (⟨S100000x128, .f32⟩ : BufTy).Contents (Elt Ideal)) (x7 : (⟨S128x128, .f32⟩ : BufTy).Contents (Elt Ideal)) (i : Fin 100000) (q : Fin 128) :
    val_main_v4 (F := Ideal) x0 x7 (ix2 i q) = ∑ k : Fin 128, x0 (ix2 i k) * x7 (ix2 k q) := by
  rw [val_main_v4_apply]
  refine Finset.sum_congr rfl fun k _ => ?_
  rw [lidx_v4, ridx_v4]

/-- The second projected feature array at (i, q): the sum over k of x[i, k] W[k, q]. -/
theorem h2_apply (x0 : (⟨S100000x128, .f32⟩ : BufTy).Contents (Elt Ideal)) (x9 : (⟨S128x128, .f32⟩ : BufTy).Contents (Elt Ideal)) (i : Fin 100000) (q : Fin 128) :
    val_main_v25 (F := Ideal) x0 x9 (ix2 i q) = ∑ k : Fin 128, x0 (ix2 i k) * x9 (ix2 k q) := by
  rw [val_main_v25_apply]
  refine Finset.sum_congr rfl fun k _ => ?_
  rw [lidx_v25, ridx_v25]

/-! ## (B) The edge aggregation as one function of the projected features -/

variable {F : FTy → Type} [FloatOps F]

/-- Everything the reference does to a projected feature array `h` to get an aggregated result: the source indices
    (row 0 of the edge array `e`, a negative one wrapped by adding 100000) gather rows of `h`, each gathered row is
    scaled by its edge's weight from `w`, the scaled rows are added into an array of zeros at the target indices
    (row 1 of `e`), and the bias `b` is added to every row. -/
def tail (h : (⟨S100000x128, .f32⟩ : BufTy).Contents (Elt F)) (e : (⟨S2x600000, .i32⟩ : BufTy).Contents (Elt F)) (w : (⟨S600000, .f32⟩ : BufTy).Contents (Elt F)) (b : (⟨S128, .f32⟩ : BufTy).Contents (Elt F)) :
    (⟨S100000x128, .f32⟩ : BufTy).Contents (Elt F) :=
  addf (Host.scatterAdd scatter_S100000x128_S600000x1_S600000x128_1_0_0_1 (val_main_v19 (F := F)) (val_main_v20 (F := F) e)
      (mulf (Host.gather gather_S100000x128_S600000x1_S600000x128_1_0_n_n_0_1_1128 h (val_main_v12 (F := F) e)) (val_main_v15 (F := F) w)))
    (val_main_v23 (F := F) b)

/-- The first aggregated result is the aggregation of the first projected feature array. -/
theorem v24_eq_tail (x0 : (⟨S100000x128, .f32⟩ : BufTy).Contents (Elt F)) (x1 : (⟨S2x600000, .i32⟩ : BufTy).Contents (Elt F)) (x2 : (⟨S600000, .f32⟩ : BufTy).Contents (Elt F))
    (x7 : (⟨S128x128, .f32⟩ : BufTy).Contents (Elt F)) (x8 : (⟨S128, .f32⟩ : BufTy).Contents (Elt F)) :
    val_main_v24 (F := F) x0 x1 x2 x7 x8 = tail (val_main_v4 (F := F) x0 x7) x1 x2 x8 := by
  unfold val_main_v24 val_main_v21 val_main_v16 val_main_v13 tail
  rfl

/-! The second branch's auxiliary arrays are the first branch's, built by the same operations under other names. -/

theorem v40_eq : val_main_v40 (F := F) = val_main_v19 (F := F) := rfl
theorem v41_eq (e : (⟨S2x600000, .i32⟩ : BufTy).Contents (Elt F)) : val_main_v41 (F := F) e = val_main_v20 (F := F) e := rfl
theorem v33_eq (e : (⟨S2x600000, .i32⟩ : BufTy).Contents (Elt F)) : val_main_v33 (F := F) e = val_main_v12 (F := F) e := rfl
theorem v36_eq (w : (⟨S600000, .f32⟩ : BufTy).Contents (Elt F)) : val_main_v36 (F := F) w = val_main_v15 (F := F) w := rfl
theorem v44_eq (b : (⟨S128, .f32⟩ : BufTy).Contents (Elt F)) : val_main_v44 (F := F) b = val_main_v23 (F := F) b := rfl

/-- The second aggregated result is the same aggregation of the second projected feature array. -/
theorem v45_eq_tail (x0 : (⟨S100000x128, .f32⟩ : BufTy).Contents (Elt F)) (x3 : (⟨S2x600000, .i32⟩ : BufTy).Contents (Elt F)) (x4 : (⟨S600000, .f32⟩ : BufTy).Contents (Elt F))
    (x9 : (⟨S128x128, .f32⟩ : BufTy).Contents (Elt F)) (x10 : (⟨S128, .f32⟩ : BufTy).Contents (Elt F)) :
    val_main_v45 (F := F) x0 x3 x4 x9 x10 = tail (val_main_v25 (F := F) x0 x9) x3 x4 x10 := by
  unfold val_main_v45 val_main_v42 val_main_v37 val_main_v34 tail
  rw [v40_eq, v41_eq, v33_eq, v36_eq, v44_eq]

/-! ## (C) The run, read through these -/

/-- On every device, from any memory with zero counters: every weakly fair execution of the reference terminates
    with its first result the linear layer, its second and third results the aggregation of the two projected
    feature arrays, and the arguments unchanged. -/
theorem run_tail (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = val_main_v3 (F := F) (m ((c.tc : Thread nD τ).loc main_arg0)) (m ((c.tc : Thread nD τ).loc main_arg5)) (m ((c.tc : Thread nD τ).loc main_arg6))
      ∧ r.2.mem ((c.tc : Thread nD τ).loc main_v24) = tail (val_main_v4 (F := F) (m ((c.tc : Thread nD τ).loc main_arg0)) (m ((c.tc : Thread nD τ).loc main_arg7))) (m ((c.tc : Thread nD τ).loc main_arg1)) (m ((c.tc : Thread nD τ).loc main_arg2)) (m ((c.tc : Thread nD τ).loc main_arg8))
      ∧ r.2.mem ((c.tc : Thread nD τ).loc main_v45) = tail (val_main_v25 (F := F) (m ((c.tc : Thread nD τ).loc main_arg0)) (m ((c.tc : Thread nD τ).loc main_arg9))) (m ((c.tc : Thread nD τ).loc main_arg3)) (m ((c.tc : Thread nD τ).loc main_arg4)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).1).trans (val_main_v3_eq _ _ _),
     ((h c).2.1).trans ((val_main_v24_eq _ _ _ _ _).trans (v24_eq_tail _ _ _ _ _)),
     ((h c).2.2.1).trans ((val_main_v45_eq _ _ _ _ _).trans (v45_eq_tail _ _ _ _ _)),
     (h c).2.2.2⟩)
    (Value.run m ρ)

end Cert.ReferenceIdeal.RefSide

end
-- ==== Proof.PayIdx.lean ====
/-
  The kernel body's one stored value, read at an index.

  The body stores, at row p and column q of its 4000 x 384 output block, the product of the x block's row p with the
  weight block's column q, accumulated from zero, plus the bias row at column q. At the ideal values a narrowing format
  change is the identity and a matrix product accumulated from zero is the plain sum over the contracted axis, so the
  stored value at (p, q) is the sum over k < 128 of x[p, k] * w[k, q], plus b[0, q].
-/
import proofs.«133655_j84310208020812_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

noncomputable section

namespace Cert.KernelIdeal.PayIdx

open Cert.KernelIdeal Cert.KernelIdeal.Gen Idealize.ShloMosaic Idealize.SL.Sem
open scoped BigOperators

/-! ## The operand indices of the product, axis by axis

  At output index i and contraction index c the left operand is read at (i 0, c) and the right operand at (c, i 1):
  axis 0 of the left operand and axis 1 of the right one are the free axes, the other two are the contracted one. -/

/-- The left operand's row is the output's row. -/
theorem lhs_pay_0 (i : S4000x384.Idx) (c : dot_S4000x128_S128x384_S4000x384_1_0_0_1_n_n.contr.Idx) :
    (dot_S4000x128_S128x384_S4000x384_1_0_0_1_n_n.lhsIdx i c 0).val = (i 0).val := by
  unfold DotDims.lhsIdx
  rw [dif_neg (show ¬(0 : Fin S4000x128.rank) ∈ dot_S4000x128_S128x384_S4000x384_1_0_0_1_n_n.lhsBatch by decide), dif_pos (show (0 : Fin S4000x128.rank) ∈ dot_S4000x128_S128x384_S4000x384_1_0_0_1_n_n.lhsNonContracting by decide)]
  rfl

/-- The left operand's column is the contracted position. -/
theorem lhs_pay_1 (i : S4000x384.Idx) (c : dot_S4000x128_S128x384_S4000x384_1_0_0_1_n_n.contr.Idx) :
    (dot_S4000x128_S128x384_S4000x384_1_0_0_1_n_n.lhsIdx i c 1).val = (c ⟨0, by decide⟩).val :=
  dot_S4000x128_S128x384_S4000x384_1_0_0_1_n_n.lhsIdx_val_of_single rfl i c

/-- The right operand's row is the contracted position. -/
theorem rhs_pay_0 (i : S4000x384.Idx) (c : dot_S4000x128_S128x384_S4000x384_1_0_0_1_n_n.contr.Idx) :
    (dot_S4000x128_S128x384_S4000x384_1_0_0_1_n_n.rhsIdx i c 0).val = (c ⟨0, by decide⟩).val :=
  dot_S4000x128_S128x384_S4000x384_1_0_0_1_n_n.rhsIdx_val_of_single rfl i c

/-- The right operand's column is the output's column. -/
theorem rhs_pay_1 (i : S4000x384.Idx) (c : dot_S4000x128_S128x384_S4000x384_1_0_0_1_n_n.contr.Idx) :
    (dot_S4000x128_S128x384_S4000x384_1_0_0_1_n_n.rhsIdx i c 1).val = (i 1).val := by
  unfold DotDims.rhsIdx
  rw [dif_neg (show ¬(1 : Fin S128x384.rank) ∈ dot_S4000x128_S128x384_S4000x384_1_0_0_1_n_n.rhsBatch by decide), dif_pos (show (1 : Fin S128x384.rank) ∈ dot_S4000x128_S128x384_S4000x384_1_0_0_1_n_n.rhsNonContracting by decide)]
  rfl

/-! ## The product accumulated from zero, at an index -/

/-- At the ideal values the product of a 4000 x 128 block with a 128 x 384 block, accumulated from zero and read at
    (p, q), is the sum over the 128 contracted positions k of the left block at (p, k) times the right block at (k, q):
    the contraction index set is re-indexed by its one coordinate. -/
theorem mm_apply (a : FVec Ideal S4000x128 .bf16) (c : FVec Ideal S128x384 .bf16) (p : Fin 4000) (q : Fin 384) :
    matmul dot_S4000x128_S128x384_S4000x384_1_0_0_1_n_n none a c (constant (F := Ideal) S4000x384 .f32 0x00000000#32) (ValueIdx.ix2 p q)
      = ∑ k : Fin 128, a (ValueIdx.ix2 p k) * c (ValueIdx.ix2 k q) := by
  simp only [matmul]
  rw [Ideal.matmul_constant_zero_apply, ← Equiv.sum_comp (ValueIdx.contrEquiv1 dot_S4000x128_S128x384_S4000x384_1_0_0_1_n_n 128 rfl rfl).symm]
  refine Finset.sum_congr rfl fun k _ => ?_
  have hk := ValueIdx.contrEquiv1_symm_val dot_S4000x128_S128x384_S4000x384_1_0_0_1_n_n 128 rfl rfl k
  have el : dot_S4000x128_S128x384_S4000x384_1_0_0_1_n_n.lhsIdx (ValueIdx.ix2 p q) ((ValueIdx.contrEquiv1 dot_S4000x128_S128x384_S4000x384_1_0_0_1_n_n 128 rfl rfl).symm k) = ValueIdx.ix2 p k := funext fun ax => Fin.ext (by
    match ax with
    | ⟨0, _⟩ => exact lhs_pay_0 _ _
    | ⟨1, _⟩ => exact (lhs_pay_1 _ _).trans hk)
  have er : dot_S4000x128_S128x384_S4000x384_1_0_0_1_n_n.rhsIdx (ValueIdx.ix2 p q) ((ValueIdx.contrEquiv1 dot_S4000x128_S128x384_S4000x384_1_0_0_1_n_n 128 rfl rfl).symm k) = ValueIdx.ix2 k q := funext fun ax => Fin.ext (by
    match ax with
    | ⟨0, _⟩ => exact (rhs_pay_0 _ _).trans hk
    | ⟨1, _⟩ => exact rhs_pay_1 _ _)
  rw [el, er]

/-! ## The stored value at an index -/

/-- The body's stored value at (p, q): the sum over the 128 contracted positions of x[p, k] * w[k, q], plus b[0, q].
    The two casts are to the operand's own shape, hence the identity; the two narrowing format changes are the identity
    at the ideal values; the bias row is broadcast down the 4000 rows, so at (p, q) it reads the row's entry at q. -/
theorem pay_apply (x : Vec Ideal S4000x128 .f32) (w : Vec Ideal S128x384 .f32) (b : Vec Ideal S1x384 .f32)
    (p : Fin 4000) (q : Fin 384) :
    Gen.k0_pay1 (F := Ideal) x w b (ValueIdx.ix2 p q)
      = (∑ k : Fin 128, x (ValueIdx.ix2 p k) * w (ValueIdx.ix2 k q)) + b (ValueIdx.ix2 (0 : Fin 1) q) := by
  unfold Gen.k0_pay1
  rw [shapeCast_self, shapeCast_self]
  refine (ValueIdx.addf_apply _ _ _).trans ?_
  rw [mm_apply, ValueIdx.broadcastTo_1b_ab_apply]
  rfl

end Cert.KernelIdeal.PayIdx

end
-- ==== Proof.KValue.lean ====
/-
  The idealized kernel's result array, as one function of the arrays the region finds.

  At grid point t the body stores, over the whole [4000, 384] output block, the product of x's row block t with the
  [128, 384] weight matrix plus the bias row; the output blocks tile the [100000, 384] result by rows. Hence after the
  run the result is, at every index (i, j),   Σ_k x[i, k] · w[k, j] + b[0, j],   where w and b are the weight matrix
  and the bias row as the region finds them: the row i lies in block i / 4000, at row i mod 4000 of that block, and the
  weight and bias windows are the whole arrays at every point.
-/
import proofs.«133655_j84310208020812_1_alg».proof.Proof.AroundIdeal
import proofs.«133655_j84310208020812_1_alg».proof.Proof.PayIdx
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Around
open Idealize.ShloMosaic Idealize.ShloMosaic.TcCoe Idealize.SL.Sem
open Idealize.ShloMosaic.Pipeline (Dat)
open ValueIdx

variable (m : (ℓ : Loc nD τ sig) → Buf (Elt Ideal) ℓ) (ρ : Dev nD → PrngReg)

theorem hz : (![0, 0] : Fin 2 → Nat) = fun _ => 0 := funext fun a => by fin_cases a <;> rfl

/-- The result array as a function of x, the weight matrix and the bias row: entry (i, j) is the inner product of row
    i of x with column j of the weights, plus entry j of the bias row. -/
def Y (x : Vec Ideal S100000x128 .f32) (w : Vec Ideal S128x384 .f32) (b : Vec Ideal S1x384 .f32) : Vec Ideal S100000x384 .f32 :=
  fun j => (∑ k : Fin 128, x (ix2 (⟨(j 0).val, (j 0).isLt⟩ : Fin 100000) k) * w (ix2 k (⟨(j 1).val, (j 1).isLt⟩ : Fin 384)))
    + b (ix2 (0 : Fin 1) (⟨(j 1).val, (j 1).isLt⟩ : Fin 384))

/-- The body's stored value at an index of the block, over the index's two coordinates. -/
theorem pay_at (x : Vec Ideal S4000x128 .f32) (w : Vec Ideal S128x384 .f32) (b : Vec Ideal S1x384 .f32) (j : S4000x384.Idx) :
    k0_pay1 (F := Ideal) x w b j
      = (∑ k : Fin 128, x (ix2 (⟨(j 0).val, (j 0).isLt⟩ : Fin 4000) k) * w (ix2 k (⟨(j 1).val, (j 1).isLt⟩ : Fin 384)))
        + b (ix2 (0 : Fin 1) (⟨(j 1).val, (j 1).isLt⟩ : Fin 384)) := by
  have e : j = ix2 (⟨(j 0).val, (j 0).isLt⟩ : Fin 4000) (⟨(j 1).val, (j 1).isLt⟩ : Fin 384) := eq_ix2 j
  exact (congrArg (k0_pay1 (F := Ideal) x w b) e).trans (Cert.KernelIdeal.PayIdx.pay_apply x w b _ _)

/-- The three input blocks at a point, at their literal types. -/
abbrev xblk (c : Dev nD) (t : Fin cfg0.N) : Vec Ideal S4000x128 .f32 := iblk m c 0 t
abbrev wblk (c : Dev nD) (t : Fin cfg0.N) : Vec Ideal S128x384 .f32 := iblk m c 1 t
abbrev bblk (c : Dev nD) (t : Fin cfg0.N) : Vec Ideal S1x384 .f32 := iblk m c 2 t

/-- The arrays the region finds, at their literal types. -/
abbrev xarr (c : Dev nD) : Vec Ideal S100000x128 .f32 := V m c main_arg0
abbrev warr (c : Dev nD) : Vec Ideal S128x384 .f32 := V m c main_v0
abbrev barr (c : Dev nD) : Vec Ideal S1x384 .f32 := V m c main_v3

/-- The printed index maps over the 25 points: x's and the result's row block is the point, their column block 0; the
    weight and bias windows sit at block (0, 0) throughout. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every row block of the result is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- A block of x read at (p, k) is x at row (block · 4000 + p), column k. -/
theorem xblk_apply (c : Dev nD) (t : Fin cfg0.N) (p : Fin 4000) (k : Fin 128) (i : Fin 100000)
    (hi : i.val = win0_3.index t (0 : Fin 2) * 4000 + p.val) :
    xblk m c t (ix2 p k) = xarr m c (ix2 i k) := by
  obtain ⟨e0, e1, -⟩ := idx_facts t
  show V m c main_arg0 (((cfg0.win 0).blk t).view.emb (ix2 p k)) = V m c main_arg0 (ix2 i k)
  refine congrArg (V m c main_arg0) (funext fun a => Fin.ext ?_)
  match a with
  | ⟨0, _⟩ => show win0_0.index t (0 : Fin 2) * 4000 + 1 * p.val = i.val; omega
  | ⟨1, _⟩ => show win0_0.index t (1 : Fin 2) * 128 + 1 * k.val = k.val; omega

/-- The weight window's block is the whole weight matrix. -/
theorem wblk_apply (c : Dev nD) (t : Fin cfg0.N) (k : Fin 128) (q : Fin 384) :
    wblk m c t (ix2 k q) = warr m c (ix2 k q) := by
  obtain ⟨-, -, e2, e3, -⟩ := idx_facts t
  show V m c main_v0 (((cfg0.win 1).blk t).view.emb (ix2 k q)) = V m c main_v0 (ix2 k q)
  refine congrArg (V m c main_v0) (funext fun a => Fin.ext ?_)
  match a with
  | ⟨0, _⟩ => show win0_1.index t (0 : Fin 2) * 128 + 1 * k.val = k.val; omega
  | ⟨1, _⟩ => show win0_1.index t (1 : Fin 2) * 384 + 1 * q.val = q.val; omega

/-- The bias window's block is the whole bias row. -/
theorem bblk_apply (c : Dev nD) (t : Fin cfg0.N) (q : Fin 384) :
    bblk m c t (ix2 (0 : Fin 1) q) = barr m c (ix2 (0 : Fin 1) q) := by
  obtain ⟨-, -, -, -, e4, e5, -⟩ := idx_facts t
  show V m c main_v3 (((cfg0.win 2).blk t).view.emb (ix2 (0 : Fin 1) q)) = V m c main_v3 (ix2 (0 : Fin 1) q)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 384 + 1 * q.val = q.val; omega

/-- What point t writes back is block t of `Y` of the arrays the region finds. -/
theorem flushed_eq (c : Dev nD) (t : Fin cfg0.N) :
    (dats m 0 c).flushed 3 t = ((cfg0.win 3).blk t).view.read (Elt Ideal) (Y (xarr m c) (warr m c) (barr m c)) := by
  show (cfg0.win 3).cut (grid0.coords t) ((dats m 0 c).after 3 t) = _
  rw [after0_3]
  show (cfg0.win 3).cut (grid0.coords t) (outY (xblk m c t) (wblk m c t) (bblk m c t)) = _
  unfold outY
  rw [View.canon_unit_zero hz]
  simp only [View.ld_unit_zero (S := S4000x128) hz, View.ld_unit_zero (S := S128x384) hz, View.ld_unit_zero (S := S1x384) hz]
  funext j
  show k0_pay1 (F := Ideal) (xblk m c t) (wblk m c t) (bblk m c t) j = Y (xarr m c) (warr m c) (barr m c) (((cfg0.win 3).blk t).view.emb j)
  refine (pay_at (xblk m c t) (wblk m c t) (bblk m c t) j).trans ?_
  obtain ⟨-, -, -, -, -, -, e6, e7⟩ := idx_facts t
  have hj0 : (j 0).val < 4000 := (j 0).isLt
  have hj1 : (j 1).val < 384 := (j 1).isLt
  have h0 : ((((cfg0.win 3).blk t).view.emb j) 0).val = win0_3.index t (0 : Fin 2) * 4000 + (j 0).val :=
    (show _ = win0_3.index t (0 : Fin 2) * 4000 + 1 * (j 0).val from rfl).trans (by omega)
  have h1 : ((((cfg0.win 3).blk t).view.emb j) 1).val = win0_3.index t (1 : Fin 2) * 384 + 1 * (j 1).val := rfl
  have hq : (⟨((((cfg0.win 3).blk t).view.emb j) 1).val, ((((cfg0.win 3).blk t).view.emb j) 1).isLt⟩ : Fin 384) = ⟨(j 1).val, hj1⟩ :=
    Fin.ext (by show ((((cfg0.win 3).blk t).view.emb j) 1).val = (j 1).val; omega)
  unfold Y
  rw [hq]
  refine congrArg₂ (· + ·) (Finset.sum_congr rfl fun k _ => congrArg₂ (· * ·) ?_ ?_) ?_
  · exact xblk_apply m c t ⟨(j 0).val, hj0⟩ k ⟨((((cfg0.win 3).blk t).view.emb j) 0).val, ((((cfg0.win 3).blk t).view.emb j) 0).isLt⟩ h0
  · exact wblk_apply m c t k _
  · exact bblk_apply m c t _

/-- An index of the result is in point t's block iff each coordinate is in the block's range on its axis. -/
theorem mem_blk (t : Fin cfg0.N) (i : S100000x384.Idx) :
    i ∈ ((cfg0.win 3).blk t).view.set ↔ ∀ a : Fin 2, win0_3.index t a * S4000x384.size a ≤ (i a).val ∧ (i a).val < win0_3.index t a * S4000x384.size a + S4000x384.size a := by
  show i ∈ ((View.whole main_v4).slice (win0_3.rect t)).set ↔ _
  rw [View.set_slice_whole, Rect.mem_set_unit]
  exact Iff.rfl

/-- The row blocks tile the result: row i is in the block of point i / 4000. -/
theorem cover (i : S100000x384.Idx) :
    ∃ t : Fin cfg0.N, (cfg0.win 3).flush t = true ∧ i ∈ ((cfg0.win 3).blk t).view.set := by
  have hi0 : (i 0).val < 100000 := (i 0).isLt
  have hi1 : (i 1).val < 384 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 384 ≤ (i 1).val ∧ (i 1).val < win0_3.index t (1 : Fin 2) * 384 + 384; omega

/-- The result array after the run. -/
theorem final (c : Dev nD) : (dats m 0 c).arrAt 3 cfg0.N = Y (xarr m c) (warr m c) (barr m c) :=
  (dats m 0 c).arrAt_eq_of_cover 3 _ (fun t _ => flushed_eq m c t) cover

end Cert.KernelIdeal.Val

end
-- ==== Proof.CatIdx.lean ====
/-
  Index-level readings of the host operations around the kernel call.

  The program glues three [128, 128] matrices side by side into one [128, 384] matrix, glues a length-128 vector
  and two zero vectors end to end into one row of length 384, and afterwards cuts the kernel's [100000, 384]
  result into three [100000, 128] column bands. Each lemma below says which element of which operand one element
  of such a glued or cut array is: column `q`, `q + 128`, `q + 256` of the glued array is column `q` of the first,
  second, third piece, and column `q` of the first, second, third band is column `q`, `q + 128`, `q + 256` of the
  array that was cut.
-/
import proofs.«133655_j84310208020812_1_alg».proof.KernelIdeal
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.CatIdx

open Cert.KernelIdeal Cert.KernelIdeal.Facts₀ Idealize.ShloMosaic ValueIdx

variable {F : FTy → Type} [FloatOps F] [Cert.KernelIdeal.Facts]

/- Gluing, reshaping, broadcasting and cutting move elements without looking at them, so the lemmas about them
   hold for arrays of any element type `α` and are stated so. At `α := Elt F .f32` they are statements about
   `Vec F s .f32`, the arrays of 32-bit floats the program handles. -/
variable {α : Type}

/-! ## The weight matrix: three square blocks side by side

Along axis 1 the three pieces span columns `[0, 128)`, `[128, 256)`, `[256, 384)`. A column `q + 128 * n` with
`q < 128` lies in piece `n`, at column `q`; the row is untouched. -/

/-- Columns `[0, 128)` of the glued matrix are the first block. -/
theorem wcat_left (a b c : S128x128.Idx → α) (k q : Fin 128) :
    concatenate S128x384 1 [⟨S128x128, a⟩, ⟨S128x128, b⟩, ⟨S128x128, c⟩]
        concatenates_S128x128_S128x128_S128x128_S128x384_d1 (ix2 k (⟨q.val, by omega⟩ : Fin 384))
      = a (ix2 k q) := by
  refine concatenate_apply_piece (t := S128x384) 1 _ _ (ix2 k (⟨q.val, by omega⟩ : Fin 384)) 0 (by show 0 < 3; omega)
    S128x128 a rfl rfl 0 rfl (ix2 k q) ?_ ?_
  · intro d
    match d with
    | ⟨0, _⟩ => intro _; rfl
    | ⟨1, _⟩ => intro hne; exact absurd rfl hne
  · show 0 + q.val = q.val
    omega

/-- Columns `[128, 256)` of the glued matrix are the second block. -/
theorem wcat_mid (a b c : S128x128.Idx → α) (k q : Fin 128) :
    concatenate S128x384 1 [⟨S128x128, a⟩, ⟨S128x128, b⟩, ⟨S128x128, c⟩]
        concatenates_S128x128_S128x128_S128x128_S128x384_d1 (ix2 k (⟨q.val + 128, by omega⟩ : Fin 384))
      = b (ix2 k q) := by
  refine concatenate_apply_piece (t := S128x384) 1 _ _ (ix2 k (⟨q.val + 128, by omega⟩ : Fin 384)) 1 (by show 1 < 3; omega)
    S128x128 b rfl rfl 128 rfl (ix2 k q) ?_ ?_
  · intro d
    match d with
    | ⟨0, _⟩ => intro _; rfl
    | ⟨1, _⟩ => intro hne; exact absurd rfl hne
  · show 128 + q.val = q.val + 128
    omega

/-- Columns `[256, 384)` of the glued matrix are the third block. -/
theorem wcat_right (a b c : S128x128.Idx → α) (k q : Fin 128) :
    concatenate S128x384 1 [⟨S128x128, a⟩, ⟨S128x128, b⟩, ⟨S128x128, c⟩]
        concatenates_S128x128_S128x128_S128x128_S128x384_d1 (ix2 k (⟨q.val + 256, by omega⟩ : Fin 384))
      = c (ix2 k q) := by
  refine concatenate_apply_piece (t := S128x384) 1 _ _ (ix2 k (⟨q.val + 256, by omega⟩ : Fin 384)) 2 (by show 2 < 3; omega)
    S128x128 c rfl rfl 256 rfl (ix2 k q) ?_ ?_
  · intro d
    match d with
    | ⟨0, _⟩ => intro _; rfl
    | ⟨1, _⟩ => intro hne; exact absurd rfl hne
  · show 256 + q.val = q.val + 256
    omega

/-! ## The bias row: three vectors end to end, then read as a one-row matrix

The reshape `[384] → [1, 384]` keeps the row-major position, so entry `(0, p)` of the row is entry `p` of the
glued vector; along its only axis the three pieces span `[0, 128)`, `[128, 256)`, `[256, 384)`. -/

/-- Entry `(0, p)` of a length-384 vector read as a `[1, 384]` matrix is entry `p` of the vector. -/
theorem row_apply (y : S384.Idx → α) (p : Fin 384) :
    shapeCast S1x384 y shapeCasts_S384_S1x384 (ix2 (0 : Fin 1) p) = y (ix1 p) :=
  shapeCast_apply y shapeCasts_S384_S1x384 (ix2 (0 : Fin 1) p) (ix1 p)
    (by rewrite [Shape.rowMajor_val_two, Shape.rowMajor_val_one]; show p.val = 0 * 384 + p.val; omega)

/-- Entries `[0, 128)` of the bias row are the first vector. -/
theorem bcat_left (u z : S128.Idx → α) (q : Fin 128) :
    shapeCast S1x384 (concatenate S384 0 [⟨S128, u⟩, ⟨S128, z⟩, ⟨S128, z⟩] concatenates_S128_S128_S128_S384_d0)
        shapeCasts_S384_S1x384 (ix2 (0 : Fin 1) (⟨q.val, by omega⟩ : Fin 384))
      = u (ix1 q) := by
  refine (row_apply _ _).trans ?_
  refine concatenate_apply_piece (t := S384) 0 _ _ (ix1 (⟨q.val, by omega⟩ : Fin 384)) 0 (by show 0 < 3; omega)
    S128 u rfl rfl 0 rfl (ix1 q) ?_ ?_
  · intro d
    match d with
    | ⟨0, _⟩ => intro hne; exact absurd rfl hne
  · show 0 + q.val = q.val
    omega

/-- Entries `[128, 256)` of the bias row are the second vector. -/
theorem bcat_mid (u z : S128.Idx → α) (q : Fin 128) :
    shapeCast S1x384 (concatenate S384 0 [⟨S128, u⟩, ⟨S128, z⟩, ⟨S128, z⟩] concatenates_S128_S128_S128_S384_d0)
        shapeCasts_S384_S1x384 (ix2 (0 : Fin 1) (⟨q.val + 128, by omega⟩ : Fin 384))
      = z (ix1 q) := by
  refine (row_apply _ _).trans ?_
  refine concatenate_apply_piece (t := S384) 0 _ _ (ix1 (⟨q.val + 128, by omega⟩ : Fin 384)) 1 (by show 1 < 3; omega)
    S128 z rfl rfl 128 rfl (ix1 q) ?_ ?_
  · intro d
    match d with
    | ⟨0, _⟩ => intro hne; exact absurd rfl hne
  · show 128 + q.val = q.val + 128
    omega

/-- Entries `[256, 384)` of the bias row are the third vector. -/
theorem bcat_right (u z : S128.Idx → α) (q : Fin 128) :
    shapeCast S1x384 (concatenate S384 0 [⟨S128, u⟩, ⟨S128, z⟩, ⟨S128, z⟩] concatenates_S128_S128_S128_S384_d0)
        shapeCasts_S384_S1x384 (ix2 (0 : Fin 1) (⟨q.val + 256, by omega⟩ : Fin 384))
      = z (ix1 q) := by
  refine (row_apply _ _).trans ?_
  refine concatenate_apply_piece (t := S384) 0 _ _ (ix1 (⟨q.val + 256, by omega⟩ : Fin 384)) 2 (by show 2 < 3; omega)
    S128 z rfl rfl 256 rfl (ix1 q) ?_ ?_
  · intro d
    match d with
    | ⟨0, _⟩ => intro hne; exact absurd rfl hne
  · show 256 + q.val = q.val + 256
    omega

/-! ## The zero vector

A scalar broadcast to a vector reads the scalar at every entry; the scalar is the word `0x00000000`, which at the
ideal instance is the extended real `0`. -/

/-- Every entry of a scalar broadcast to a length-128 vector is the scalar. (The scalar has no axes, so the axis map
    `dims` is the empty map whatever its spelling; it is left a variable.) -/
theorem splat_apply (dims : Fin S_.rank → Fin S128.rank) (h : S_.BroadcastsInDim S128 dims) (x : S_.Idx → α)
    (q : Fin 128) : broadcastInDim S128 dims h x (ix1 q) = x ix0 :=
  broadcastInDim_apply dims h x (ix1 q) ix0 (fun d => d.elim0)

/-- Every entry of the broadcast zero word is the extended real zero. -/
theorem zeros_apply (q : Fin 128) :
    broadcastInDim S128 ![] bcast_S_S128 (constant (F := Ideal) S_ .f32 0x00000000#32) (ix1 q) = (0 : EReal) := by
  rw [splat_apply, constant_apply]
  exact Ideal.ofBits_zero_f32

/-! ## The three column bands of the kernel's result

A unit-stride slice at offsets `(0, o)` reads the operand at the same row and at column `o` further on. -/

/-- Band `[0, 128)`: column `q` of the band is column `q` of the whole. -/
theorem slice_left (Y : S100000x384.Idx → α) (i : Fin 100000) (q : Fin 128) :
    extractStridedSlice S100000x128 ![0, 0] Y slices_S100000x384_S100000x128_0_0 (ix2 i q)
      = Y (ix2 i (⟨q.val, by omega⟩ : Fin 384)) :=
  extractStridedSlice_apply ![0, 0] Y slices_S100000x384_S100000x128_0_0 (ix2 i q)
    (ix2 i (⟨q.val, by omega⟩ : Fin 384)) (fun d => match d with
      | ⟨0, _⟩ => by show i.val = 0 + i.val; omega
      | ⟨1, _⟩ => by show q.val = 0 + q.val; omega)

/-- Band `[128, 256)`: column `q` of the band is column `q + 128` of the whole. -/
theorem slice_mid (Y : S100000x384.Idx → α) (i : Fin 100000) (q : Fin 128) :
    extractStridedSlice S100000x128 ![0, 128] Y slices_S100000x384_S100000x128_0_128 (ix2 i q)
      = Y (ix2 i (⟨q.val + 128, by omega⟩ : Fin 384)) :=
  extractStridedSlice_apply ![0, 128] Y slices_S100000x384_S100000x128_0_128 (ix2 i q)
    (ix2 i (⟨q.val + 128, by omega⟩ : Fin 384)) (fun d => match d with
      | ⟨0, _⟩ => by show i.val = 0 + i.val; omega
      | ⟨1, _⟩ => by show q.val + 128 = 128 + q.val; omega)

/-- Band `[256, 384)`: column `q` of the band is column `q + 256` of the whole. -/
theorem slice_right (Y : S100000x384.Idx → α) (i : Fin 100000) (q : Fin 128) :
    extractStridedSlice S100000x128 ![0, 256] Y slices_S100000x384_S100000x128_0_256 (ix2 i q)
      = Y (ix2 i (⟨q.val + 256, by omega⟩ : Fin 384)) :=
  extractStridedSlice_apply ![0, 256] Y slices_S100000x384_S100000x128_0_256 (ix2 i q)
    (ix2 i (⟨q.val + 256, by omega⟩ : Fin 384)) (fun d => match d with
      | ⟨0, _⟩ => by show i.val = 0 + i.val; omega
      | ⟨1, _⟩ => by show q.val + 256 = 256 + q.val; omega)

end Cert.KernelIdeal.CatIdx

end
-- ==== Proof.Algebra.lean ====
/-
  The law that joins the two programs. The kernel multiplies x ONCE by the three weight matrices laid side by side,
  [Wln | W1 | W2], adds the row [bln | 0 | 0], and cuts the result into three column bands; the reference multiplies x
  by each matrix separately and adds bln to the first product only. Column q of band n of the wide product is the inner
  product of a row of x with column q of the n-th matrix, so band by band, over the extended reals:

      band 0 = x·Wln + bln,      band 1 = x·W1 + 0 = x·W1,      band 2 = x·W2 + 0 = x·W2,

  the last step being that zero is neutral for addition on every extended real, infinite ones included; no finiteness
  of the inputs is used.
-/
import proofs.«133655_j84310208020812_1_alg».proof.Proof.KValue
import proofs.«133655_j84310208020812_1_alg».proof.Proof.CatIdx
import proofs.«133655_j84310208020812_1_alg».proof.Proof.RefSide

noncomputable section

namespace Cert.KernelIdeal.Alg

open Cert.KernelIdeal Cert.KernelIdeal.Gen Cert.KernelIdeal.Val
open Idealize.ShloMosaic ValueIdx
open Cert.ReferenceIdeal.Read (val_main_v3 val_main_v4 val_main_v25)
open scoped BigOperators

/-- The result function at the two coordinates of an index. -/
theorem Y_apply (x : Vec Ideal S100000x128 .f32) (w : Vec Ideal S128x384 .f32) (b : Vec Ideal S1x384 .f32) (p : Fin 100000) (q : Fin 384) :
    Y x w b (ix2 p q) = (∑ k : Fin 128, x (ix2 p k) * w (ix2 k q)) + b (ix2 (0 : Fin 1) q) := rfl

/-- The three weight matrices side by side. -/
abbrev wcat (a b c : Vec Ideal S128x128 .f32) : Vec Ideal S128x384 .f32 :=
  concatenate S128x384 1 [⟨S128x128, a⟩, ⟨S128x128, b⟩, ⟨S128x128, c⟩] concatenates_S128x128_S128x128_S128x128_S128x384_d1
/-- The zero vector of length 128. -/
abbrev zeros : Vec Ideal S128 .f32 := broadcastInDim S128 ![] bcast_S_S128 (constant (F := Ideal) S_ .f32 0x00000000#32)
/-- The bias row [u | 0 | 0]. -/
abbrev bcat (u : Vec Ideal S128 .f32) : Vec Ideal S1x384 .f32 :=
  shapeCast S1x384 (concatenate S384 0 [⟨S128, u⟩, ⟨S128, zeros⟩, ⟨S128, zeros⟩] concatenates_S128_S128_S128_S384_d0) shapeCasts_S384_S1x384

/-- Columns [0, 128) of the wide product plus bias row are x·Wln + bln. -/
theorem band_left (x : Vec Ideal S100000x128 .f32) (a b c : Vec Ideal S128x128 .f32) (u : Vec Ideal S128 .f32) :
    extractStridedSlice S100000x128 ![0, 0] (Y x (wcat a b c) (bcat u)) slices_S100000x384_S100000x128_0_0
      = val_main_v3 (F := Ideal) x a u := by
  funext i
  obtain ⟨p, q, rfl⟩ : ∃ (p : Fin 100000) (q : Fin 128), i = ix2 p q := ⟨i 0, i 1, eq_ix2 i⟩
  rw [Cert.KernelIdeal.CatIdx.slice_left, Y_apply, Cert.ReferenceIdeal.RefSide.lin_apply]
  exact congrArg₂ (· + ·)
    (Finset.sum_congr rfl fun k _ => congrArg (x (ix2 p k) * ·) (Cert.KernelIdeal.CatIdx.wcat_left a b c k q))
    (Cert.KernelIdeal.CatIdx.bcat_left u zeros q)

/-- Columns [128, 256) are x·W1: the bias there is zero. -/
theorem band_mid (x : Vec Ideal S100000x128 .f32) (a b c : Vec Ideal S128x128 .f32) (u : Vec Ideal S128 .f32) :
    extractStridedSlice S100000x128 ![0, 128] (Y x (wcat a b c) (bcat u)) slices_S100000x384_S100000x128_0_128
      = val_main_v4 (F := Ideal) x b := by
  funext i
  obtain ⟨p, q, rfl⟩ : ∃ (p : Fin 100000) (q : Fin 128), i = ix2 p q := ⟨i 0, i 1, eq_ix2 i⟩
  rw [Cert.KernelIdeal.CatIdx.slice_mid, Y_apply, Cert.ReferenceIdeal.RefSide.h1_apply]
  have hb : bcat u (ix2 (0 : Fin 1) (⟨q.val + 128, by omega⟩ : Fin 384)) = (0 : EReal) :=
    (Cert.KernelIdeal.CatIdx.bcat_mid u zeros q).trans (Cert.KernelIdeal.CatIdx.zeros_apply q)
  refine (congrArg₂ (· + ·)
    (Finset.sum_congr rfl fun k _ => congrArg (x (ix2 p k) * ·) (Cert.KernelIdeal.CatIdx.wcat_mid a b c k q)) hb).trans ?_
  exact add_zero (∑ k : Fin 128, x (ix2 p k) * b (ix2 k q) : EReal)

/-- Columns [256, 384) are x·W2: the bias there is zero. -/
theorem band_right (x : Vec Ideal S100000x128 .f32) (a b c : Vec Ideal S128x128 .f32) (u : Vec Ideal S128 .f32) :
    extractStridedSlice S100000x128 ![0, 256] (Y x (wcat a b c) (bcat u)) slices_S100000x384_S100000x128_0_256
      = val_main_v25 (F := Ideal) x c := by
  funext i
  obtain ⟨p, q, rfl⟩ : ∃ (p : Fin 100000) (q : Fin 128), i = ix2 p q := ⟨i 0, i 1, eq_ix2 i⟩
  rw [Cert.KernelIdeal.CatIdx.slice_right, Y_apply, Cert.ReferenceIdeal.RefSide.h2_apply]
  have hb : bcat u (ix2 (0 : Fin 1) (⟨q.val + 256, by omega⟩ : Fin 384)) = (0 : EReal) :=
    (Cert.KernelIdeal.CatIdx.bcat_right u zeros q).trans (Cert.KernelIdeal.CatIdx.zeros_apply q)
  refine (congrArg₂ (· + ·)
    (Finset.sum_congr rfl fun k _ => congrArg (x (ix2 p k) * ·) (Cert.KernelIdeal.CatIdx.wcat_right a b c k q)) hb).trans ?_
  exact add_zero (∑ k : Fin 128, x (ix2 p k) * c (ix2 k q) : EReal)

end Cert.KernelIdeal.Alg

end
-- ==== Proof.Bridge.lean ====
/-
  The idealized kernel's run with its three results named.

  The frame run leaves the kernel's [100000, 384] array at `Y` of the arrays the region found, and every other buffer
  as the forty-nine host operations after the region leave it. Read one operation at a time, those operations give
  the first result as the left column band of that array, and the second and third as the edge aggregation (index
  wrap, row gather, scale by the edge weights, scatter-add into zeros, plus bias) of the middle and right bands: the
  very operations the reference applies to its own products. The arrays the region found are x as launched, the three
  weight matrices side by side, and the row [bln | 0 | 0]; so by the band law each result is the reference's term.
-/
import proofs.«133655_j84310208020812_1_alg».proof.Proof.KValue
import proofs.«133655_j84310208020812_1_alg».proof.Proof.Algebra
import Idealize.ShloMosaic.Lib.StableHlo.Run

set_option maxRecDepth 16384

noncomputable section

namespace Cert.KernelIdeal.Bridge

open Cert.KernelIdeal Cert.KernelIdeal.Gen Cert.KernelIdeal.Around Cert.KernelIdeal.Val Cert.KernelIdeal.Alg
open Idealize.ShloMosaic Idealize.ShloMosaic.TcCoe Idealize.SL.Sem Idealize.ShloMosaic.StableHlo
open Idealize.ShloMosaic.Pipeline (Dat)
open Cert.ReferenceIdeal.RefSide (tail)
open Cert.ReferenceIdeal.Read (val_main_v3 val_main_v4 val_main_v25)

variable (m : (ℓ : Loc nD τ sig) → Buf (Elt Ideal) ℓ) (ρ : Dev nD → PrngReg)

/-! ## The arrays the region finds -/

theorem xarr_eq (c : Dev nD) : xarr m c = m ((c.tc : Thread nD τ).loc main_arg0) := V_arg m c (by simp [args])

/-- The weight window's array is the three weight matrices side by side. -/
theorem warr_eq (c : Dev nD) : warr m c = wcat (m ((c.tc : Thread nD τ).loc main_arg5)) (m ((c.tc : Thread nD τ).loc main_arg7)) (m ((c.tc : Thread nD τ).loc main_arg9)) := by
  show StableHlo.after hostOps0 (fun b => m (c, b)) (Proc.devRef .tc main_v0) = _
  after_results
  rfl

/-- The bias window's array is the row [bln | 0 | 0]. -/
theorem barr_eq (c : Dev nD) : barr m c = bcat (m ((c.tc : Thread nD τ).loc main_arg6)) := by
  show StableHlo.after hostOps0 (fun b => m (c, b)) (Proc.devRef .tc main_v3) = _
  after_results
  rfl

/-! ## The buffers at the region's exit -/

/-- Core `c`'s buffer contents at the region's exit: the pipeline's arrays as the proof data say, the rest as at
    entry. -/
abbrev Wx (c : Dev nD) : Valuation τ sig (Elt Ideal) :=
  Pipeline.withArrays spec0 c (V0 m c) fun w => (dats m 0 c).arrAt w cfg0.N

theorem Wx_v4 (c : Dev nD) : Wx m c (Proc.devRef .tc main_v4) = Y (xarr m c) (warr m c) (barr m c) :=
  (Pipeline.withArrays_arr spec0 launch0.win.arr_inj c _ _ 3).trans (final m c)

theorem restArgs_ne {b : Ref sig .tc} (hb : b ∈ restArgs) : ∀ w, Pipeline.arrRef spec0 w ≠ b := by
  simp only [restArgs, List.mem_cons, List.mem_nil_iff, or_false] at hb
  rcases hb with rfl | rfl | rfl | rfl | rfl | rfl | rfl | rfl | rfl | rfl <;> decide

theorem Wx_arg (c : Dev nD) {b : Ref sig .tc} (hb : b ∈ restArgs) :
    Wx m c (Proc.devRef .tc b) = m ((c.tc : Thread nD τ).loc b) :=
  (Pipeline.withArrays_of_ne _ c (V0 m c) _ b (restArgs_ne hb)).trans (V_arg m c (restArgs_sub hb))

/-! ## The three results, read off the operations after the region -/

theorem res_v5 (c : Dev nD) : Pipeline.afterTail₀ cfgs (dats m) 0 (V0 m) [hostOps1] c main_v5
    = extractStridedSlice S100000x128 ![0, 0] (Wx m c (Proc.devRef .tc main_v4)) slices_S100000x384_S100000x128_0_0 := by
  unfold Pipeline.afterTail₀
  show StableHlo.after hostOps1 (Wx m c) (Proc.devRef .tc main_v5) = _
  after_results_simp <;> rfl

theorem res_v27 (c : Dev nD) : Pipeline.afterTail₀ cfgs (dats m) 0 (V0 m) [hostOps1] c main_v27
    = tail (F := Ideal) (extractStridedSlice S100000x128 ![0, 128] (Wx m c (Proc.devRef .tc main_v4)) slices_S100000x384_S100000x128_0_128)
        (Wx m c (Proc.devRef .tc main_arg1)) (Wx m c (Proc.devRef .tc main_arg2)) (Wx m c (Proc.devRef .tc main_arg8)) := by
  unfold Pipeline.afterTail₀
  show StableHlo.after hostOps1 (Wx m c) (Proc.devRef .tc main_v27) = _
  after_results_simp <;> rfl

theorem res_v47 (c : Dev nD) : Pipeline.afterTail₀ cfgs (dats m) 0 (V0 m) [hostOps1] c main_v47
    = tail (F := Ideal) (extractStridedSlice S100000x128 ![0, 256] (Wx m c (Proc.devRef .tc main_v4)) slices_S100000x384_S100000x128_0_256)
        (Wx m c (Proc.devRef .tc main_arg3)) (Wx m c (Proc.devRef .tc main_arg4)) (Wx m c (Proc.devRef .tc main_arg10)) := by
  unfold Pipeline.afterTail₀
  show StableHlo.after hostOps1 (Wx m c) (Proc.devRef .tc main_v47) = _
  after_results_simp <;> rfl

/-! ## The results as the reference's terms of the launch contents -/

theorem exit_Y (c : Dev nD) : Wx m c (Proc.devRef .tc main_v4)
    = Y (m ((c.tc : Thread nD τ).loc main_arg0))
        (wcat (m ((c.tc : Thread nD τ).loc main_arg5)) (m ((c.tc : Thread nD τ).loc main_arg7)) (m ((c.tc : Thread nD τ).loc main_arg9)))
        (bcat (m ((c.tc : Thread nD τ).loc main_arg6))) := by
  rw [Wx_v4, xarr_eq, warr_eq, barr_eq]

theorem val_v5 (c : Dev nD) : Pipeline.afterTail₀ cfgs (dats m) 0 (V0 m) [hostOps1] c main_v5
    = val_main_v3 (F := Ideal) (m ((c.tc : Thread nD τ).loc main_arg0)) (m ((c.tc : Thread nD τ).loc main_arg5)) (m ((c.tc : Thread nD τ).loc main_arg6)) := by
  rw [res_v5, exit_Y]
  exact band_left _ _ _ _ _

theorem val_v27 (c : Dev nD) : Pipeline.afterTail₀ cfgs (dats m) 0 (V0 m) [hostOps1] c main_v27
    = tail (F := Ideal) (val_main_v4 (F := Ideal) (m ((c.tc : Thread nD τ).loc main_arg0)) (m ((c.tc : Thread nD τ).loc main_arg7)))
        (m ((c.tc : Thread nD τ).loc main_arg1)) (m ((c.tc : Thread nD τ).loc main_arg2)) (m ((c.tc : Thread nD τ).loc main_arg8)) := by
  rw [res_v27, exit_Y, Wx_arg m c (b := main_arg1) (by simp [restArgs]), Wx_arg m c (b := main_arg2) (by simp [restArgs]),
    Wx_arg m c (b := main_arg8) (by simp [restArgs]), band_mid]

theorem val_v47 (c : Dev nD) : Pipeline.afterTail₀ cfgs (dats m) 0 (V0 m) [hostOps1] c main_v47
    = tail (F := Ideal) (val_main_v25 (F := Ideal) (m ((c.tc : Thread nD τ).loc main_arg0)) (m ((c.tc : Thread nD τ).loc main_arg9)))
        (m ((c.tc : Thread nD τ).loc main_arg3)) (m ((c.tc : Thread nD τ).loc main_arg4)) (m ((c.tc : Thread nD τ).loc main_arg10)) := by
  rw [res_v47, exit_Y, Wx_arg m c (b := main_arg3) (by simp [restArgs]), Wx_arg m c (b := main_arg4) (by simp [restArgs]),
    Wx_arg m c (b := main_arg10) (by simp [restArgs]), band_right]

/-! ## The run -/

/-- Every weakly fair execution of the idealized kernel's @main terminates with its three results at the reference's
    terms of the launch contents, and its arguments unchanged. -/
theorem krun : θ_run defs (onTc (τ := τ) (main (F := Ideal))) ⟨m, fun _ => 0, ρ⟩ fun r => ∀ c : Dev nD,
      r.2.mem ((c.tc : Thread nD τ).loc main_v5)
        = val_main_v3 (F := Ideal) (m ((c.tc : Thread nD τ).loc main_arg0)) (m ((c.tc : Thread nD τ).loc main_arg5)) (m ((c.tc : Thread nD τ).loc main_arg6))
      ∧ r.2.mem ((c.tc : Thread nD τ).loc main_v27)
        = tail (F := Ideal) (val_main_v4 (F := Ideal) (m ((c.tc : Thread nD τ).loc main_arg0)) (m ((c.tc : Thread nD τ).loc main_arg7)))
            (m ((c.tc : Thread nD τ).loc main_arg1)) (m ((c.tc : Thread nD τ).loc main_arg2)) (m ((c.tc : Thread nD τ).loc main_arg8))
      ∧ r.2.mem ((c.tc : Thread nD τ).loc main_v47)
        = tail (F := Ideal) (val_main_v25 (F := Ideal) (m ((c.tc : Thread nD τ).loc main_arg0)) (m ((c.tc : Thread nD τ).loc main_arg9)))
            (m ((c.tc : Thread nD τ).loc main_arg3)) (m ((c.tc : Thread nD τ).loc main_arg4)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨((h c).2 main_v5 (Pipeline.mem_restRefs_of main_v5 (by decide) (by decide))).trans (val_v5 m c),
      ((h c).2 main_v27 (Pipeline.mem_restRefs_of main_v27 (by decide) (by decide))).trans (val_v27 m c),
      ((h c).2 main_v47 (Pipeline.mem_restRefs_of main_v47 (by decide) (by decide))).trans (val_v47 m c),
      args_of_post m (dats m) (A_eq m) r h c⟩) (run_main m ρ)

end Cert.KernelIdeal.Bridge

end
-- ==== Proof.lean ====
/-
  The certificate of an inception block over a graph: one dense branch x·Wln + bln, and two branches that project the
  node features (x·W1, x·W2) and then aggregate them along weighted edges — gather the source rows, scale each by its
  edge weight, scatter-add by destination into zeros, add a bias.

  The kernel computes the three projections with ONE pipelined matrix product: it lays the three [128, 128] weight
  matrices side by side into a [128, 384] matrix and the biases into the row [bln | 0 | 0], multiplies x by that matrix
  in 25 row blocks of 4000 rows (bf16 operands, which at the ideal instance are the numbers themselves), adds the row,
  and cuts the [100000, 384] result into three column bands. The edge aggregation is the same host operations in both
  programs. So the two programs agree once the three bands are shown to be the three separate products: column q of
  band n of the wide product is the inner product of a row of x with column q of the n-th matrix, and the bias added in
  bands 1 and 2 is zero, which is neutral on every extended real. No finiteness of the inputs is needed, and out-of-range
  edge indices are treated alike by both programs (the gather and the scatter are the same total functions).

  Frames: each program runs to the end without a fault and leaves its eleven arguments as launched — for the two
  kernel programs because the host operations write only their own result buffers and the pipeline writes only the
  kernel's result array (Proof/AroundBits.lean, Proof/AroundIdeal.lean); for the reference because it is host operations
  only. The idealization rewrote nothing, so the kernel's idealized program is its own text read over the extended reals.
-/
import proofs.«133655_j84310208020812_1_alg».proof.Defs
import proofs.«133655_j84310208020812_1_alg».proof.Proof.Gen.Kernel
import proofs.«133655_j84310208020812_1_alg».proof.Proof.Gen.KernelIdeal
import proofs.«133655_j84310208020812_1_alg».proof.Proof.Gen.ReferenceIdeal
import proofs.«133655_j84310208020812_1_alg».proof.Proof.Gen.Pre_finite_inputs
import proofs.«133655_j84310208020812_1_alg».proof.Proof.AroundBits
import proofs.«133655_j84310208020812_1_alg».proof.Proof.AroundIdeal
import proofs.«133655_j84310208020812_1_alg».proof.Proof.RefSide
import proofs.«133655_j84310208020812_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Around.frame m ρ

/-- The idealized kernel program runs and keeps its arguments. -/
theorem frame_ki : Cert.frame_KernelIdeal := fun m ρ _ => Cert.KernelIdeal.Around.frame m ρ

/-- The reference runs and keeps its arguments: its run, with the results dropped. -/
theorem frame_ri : Cert.frame_ReferenceIdeal := fun m ρ _ =>
  (θ_run Cert.ReferenceIdeal.defs _ _).mono (fun _ h c => (h c).2.2.2) (Cert.ReferenceIdeal.RefSide.run_tail (F := Ideal) m ρ)

/-- The idealization applied no rewrite. -/
theorem preserves : Cert.preserves_Kernel_KernelIdeal := trivial

/-- From memories agreeing on the arguments both idealized programs end with equal results: the kernel's run names each
    of its results by the reference's term of the kernel's launch contents, and the reference's run by the same term of
    its own, which are the same arrays. -/
theorem algebraic : Cert.algebraic_KernelIdeal_ReferenceIdeal := by
  intro m ρ m' ρ' _ hagree
  refine ⟨_, _, _, Cert.KernelIdeal.Bridge.krun m ρ, ?_⟩
  refine (θ_run Cert.ReferenceIdeal.defs _ _).mono (fun _ h c => ?_) (Cert.ReferenceIdeal.RefSide.run_tail (F := Ideal) m' ρ')
  obtain ⟨a0, a1, a2, a3, a4, a5, a6, a7, a8, a9, a10⟩ := hagree c
  refine ⟨?_, ?_, ?_, (h c).2.2.2⟩
  · rw [(h c).1, a0, a5, a6]
  · rw [(h c).2.1, a0, a7, a1, a2, a8]
  · rw [(h c).2.2.1, a0, a9, a3, a4, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
